-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192x16 : Shape := ⟨3, ![256, 8192, 16]⟩
abbrev S_ : Shape := ⟨0, ![]⟩

class Facts : Prop where
  bcast_S_S256x8192x16 : S_.BroadcastsInDim S256x8192x16 (![] : Fin 0 → Fin S256x8192x16.rank)
  reducesTo_S256x8192x16_S_d0_1_2 : S256x8192x16.ReducesTo [0, 1, 2] S_
  h_S_ : 0 < S_.numel

variable [Facts]

def fn {F : FTy → Type} [FloatOps F] (main_arg0 : FVec F S256x8192x16 .f32) (main_arg1 : FVec F S256x8192x16 .f32) : IVec S_ 1 :=
  let main_v0 : FVec F S256x8192x16 .f32 := Host.absf main_arg0
  let main_cst : FVec F S_ .f32 := constant S_ .f32 0x7F800000#32
  let main_v1 : FVec F S256x8192x16 .f32 := broadcastInDim S256x8192x16 ![] bcast_S_S256x8192x16 main_cst
  let main_v2 : IVec S256x8192x16 1 := cmpf .olt main_v0 main_v1
  let main_c : IVec S_ 1 := constantI S_ 1 1#1
  let main_v3 : IVec S_ 1 := (fun x v => Host.reduce IntOp.andi x v reducesTo_S256x8192x16_S_d0_1_2 h_S_) main_v2 main_c
  let main_v4 : FVec F S256x8192x16 .f32 := Host.absf main_arg1
  let main_cst_0 : FVec F S_ .f32 := constant S_ .f32 0x7F800000#32
  let main_v5 : FVec F S256x8192x16 .f32 := broadcastInDim S256x8192x16 ![] bcast_S_S256x8192x16 main_cst_0
  let main_v6 : IVec S256x8192x16 1 := cmpf .olt main_v4 main_v5
  let main_c_1 : IVec S_ 1 := constantI S_ 1 1#1
  let main_v7 : IVec S_ 1 := (fun x v => Host.reduce IntOp.andi x v reducesTo_S256x8192x16_S_d0_1_2 h_S_) main_v6 main_c_1
  let main_v8 : IVec S_ 1 := andi main_v3 main_v7
  main_v8
-- ==== Kernel.lean ====
abbrev S256x8192x16 : Shape := ⟨3, ![256, 8192, 16]⟩
abbrev S8x8192x16 : Shape := ⟨3, ![8, 8192, 16]⟩
abbrev S8x8190x16 : Shape := ⟨3, ![8, 8190, 16]⟩
abbrev S8x1x16 : Shape := ⟨3, ![8, 1, 16]⟩

abbrev nBuf : Space → Nat
  | .hbm => 3
  | .vmem => 6
  | .smem => 0
  | _ => 0

abbrev bufTy : (tb : Table) → Fin (tcTables nBuf tb) → BufTy
  | .hbm, ⟨0, _⟩ => ⟨S256x8192x16, .f32⟩
  | .hbm, ⟨1, _⟩ => ⟨S256x8192x16, .f32⟩
  | .hbm, ⟨2, _⟩ => ⟨S256x8192x16, .f32⟩
  | .local _ .vmem, ⟨0, _⟩ => ⟨S8x8192x16, .f32⟩
  | .local _ .vmem, ⟨1, _⟩ => ⟨S8x8192x16, .f32⟩
  | .local _ .vmem, ⟨2, _⟩ => ⟨S8x8192x16, .f32⟩
  | .local _ .vmem, ⟨3, _⟩ => ⟨S8x8192x16, .f32⟩
  | .local _ .vmem, ⟨4, _⟩ => ⟨S8x8192x16, .f32⟩
  | .local _ .vmem, ⟨5, _⟩ => ⟨S8x8192x16, .f32⟩
  | _, _ => ⟨S256x8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8192x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8192x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x8192x16_S8x8192x16_0_0_0 : ∀ a, (![0, 0, 0] : Fin 3 → Nat) a + S8x8192x16.size a ≤ S8x8192x16.size a
  h_S8x8192x16 : 0 < S8x8192x16.numel
  slices_S8x8192x16_o0_0_0_S8x8190x16 : S8x8192x16.Slices ![0, 0, 0] S8x8190x16
  slices_S8x8192x16_o0_1_0_S8x8190x16 : S8x8192x16.Slices ![0, 1, 0] S8x8190x16
  slices_S8x8192x16_o0_2_0_S8x8190x16 : S8x8192x16.Slices ![0, 2, 0] S8x8190x16
  natLt_1_32 : 1 < 32
  slices_S8x8192x16_o0_0_0_S8x1x16 : S8x8192x16.Slices ![0, 0, 0] S8x1x16
  inb_S8x8192x16_S8x1x16_0_0_0 : ∀ a, (![0, 0, 0] : Fin 3 → Nat) a + S8x1x16.size a ≤ S8x8192x16.size a
  h_S8x1x16 : 0 < S8x1x16.numel
  inb_S8x8192x16_S8x8190x16_0_1_0 : ∀ a, (![0, 1, 0] : Fin 3 → Nat) a + S8x8190x16.size a ≤ S8x8192x16.size a
  h_S8x8190x16 : 0 < S8x8190x16.numel
  slices_S8x8192x16_o0_8191_0_S8x1x16 : S8x8192x16.Slices ![0, 8191, 0] S8x1x16
  inb_S8x8192x16_S8x1x16_0_8191_0 : ∀ a, (![0, 8191, 0] : Fin 3 → Nat) a + S8x1x16.size a ≤ S8x8192x16.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8192x16.size a ≤ S256x8192x16.size a
  hwx0_0 : ∀ i : grid0.Coords, EltTy.bits .f32 = 32 ∨ (Rect.block (s := S256x8192x16) S8x8192x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8192x16.size a ≤ S256x8192x16.size a
  hwx0_1 : ∀ i : grid0.Coords, EltTy.bits .f32 = 32 ∨ (Rect.block (s := S256x8192x16) S8x8192x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8192x16.size a ≤ S256x8192x16.size a
  hwx0_2 : ∀ i : grid0.Coords, EltTy.bits .f32 = 32 ∨ (Rect.block (s := S256x8192x16) S8x8192x16.size (cc0_transform_2 i) (hinb0_2 i)).WholeWords (EltTy.packing .f32)

variable [Facts₀]

abbrev win0_0 : Pipeline.Window sig grid0 :=
  Pipeline.Window.ofSpec (Memref.whole main_arg0) S8x8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8192x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x8192x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x8192x16 : Shape := ⟨3, ![256, 8192, 16]⟩
abbrev S256x8190x16 : Shape := ⟨3, ![256, 8190, 16]⟩
abbrev S_ : Shape := ⟨0, ![]⟩
abbrev S256x1x16 : Shape := ⟨3, ![256, 1, 16]⟩

abbrev nBuf : Space → Nat
  | .hbm => 36
  | .vmem => 0
  | .smem => 0
  | _ => 0

abbrev bufTy : (tb : Table) → Fin (tcTables nBuf tb) → BufTy
  | .hbm, ⟨0, _⟩ => ⟨S256x8192x16, .f32⟩
  | .hbm, ⟨1, _⟩ => ⟨S256x8192x16, .f32⟩
  | .hbm, ⟨2, _⟩ => ⟨S256x8192x16, .f32⟩
  | .hbm, ⟨3, _⟩ => ⟨S256x8190x16, .f32⟩
  | .hbm, ⟨4, _⟩ => ⟨S256x8190x16, .f32⟩
  | .hbm, ⟨5, _⟩ => ⟨S256x8190x16, .f32⟩
  | .hbm, ⟨6, _⟩ => ⟨S256x8190x16, .f32⟩
  | .hbm, ⟨7, _⟩ => ⟨S_, .f32⟩
  | .hbm, ⟨8, _⟩ => ⟨S256x8190x16, .f32⟩
  | .hbm, ⟨9, _⟩ => ⟨S256x8190x16, .f32⟩
  | .hbm, ⟨10, _⟩ => ⟨S256x8190x16, .f32⟩
  | .hbm, ⟨11, _⟩ => ⟨S256x8190x16, .f32⟩
  | .hbm, ⟨12, _⟩ => ⟨S_, .i32⟩
  | .hbm, ⟨13, _⟩ => ⟨S_, .f32⟩
  | .hbm, ⟨14, _⟩ => ⟨S256x8192x16, .f32⟩
  | .hbm, ⟨15, _⟩ => ⟨S256x1x16, .f32⟩
  | .hbm, ⟨16, _⟩ => ⟨S_, .f32⟩
  | .hbm, ⟨17, _⟩ => ⟨S256x1x16, .f32⟩
  | .hbm, ⟨18, _⟩ => ⟨S256x1x16, .f32⟩
  | .hbm, ⟨19, _⟩ => ⟨S256x8190x16, .f32⟩
  | .hbm, ⟨20, _⟩ => ⟨S_, .f32⟩
  | .hbm, ⟨21, _⟩ => ⟨S256x8190x16, .f32⟩
  | .hbm, ⟨22, _⟩ => ⟨S256x8190x16, .f32⟩
  | .hbm, ⟨23, _⟩ => ⟨S256x1x16, .f32⟩
  | .hbm, ⟨24, _⟩ => ⟨S_, .f32⟩
  | .hbm, ⟨25, _⟩ => ⟨S256x1x16, .f32⟩
  | .hbm, ⟨26, _⟩ => ⟨S256x1x16, .f32⟩
  | .hbm, ⟨27, _⟩ => ⟨S256x8192x16, .f32⟩
  | .hbm, ⟨28, _⟩ => ⟨S_, .f32⟩
  | .hbm, ⟨29, _⟩ => ⟨S256x8192x16, .f32⟩
  | .hbm, ⟨30, _⟩ => ⟨S256x8192x16, .i1⟩
  | .hbm, ⟨31, _⟩ => ⟨S256x8192x16, .f32⟩
  | .hbm, ⟨32, _⟩ => ⟨S256x8192x16, .f32⟩
  | .hbm, ⟨33, _⟩ => ⟨S256x8192x16, .f32⟩
  | .hbm, ⟨34, _⟩ => ⟨S256x8192x16, .f32⟩
  | .hbm, ⟨35, _⟩ => ⟨S256x8192x16, .f32⟩
  | _, _ => ⟨S256x8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  slices_S256x8192x16_S256x8190x16_0_0_0 : S256x8192x16.Slices ![0, 0, 0] S256x8190x16
  slices_S256x8192x16_S256x8190x16_0_1_0 : S256x8192x16.Slices ![0, 1, 0] S256x8190x16
  slices_S256x8192x16_S256x8190x16_0_2_0 : S256x8192x16.Slices ![0, 2, 0] S256x8190x16
  bcast_S_S256x8190x16 : S_.BroadcastsInDim S256x8190x16 (![] : Fin 0 → Fin S256x8190x16.rank)
  pads_S256x8190x16_S256x8192x16_000_110_000 : S256x8190x16.Pads (![0, 1, 0] : Fin 3 → Nat) ![0, 1, 0] ![0, 0, 0] S256x8192x16
  h_S_ : 0 < S_.numel
  slices_S256x8192x16_S256x1x16_0_1_0 : S256x8192x16.Slices ![0, 1, 0] S256x1x16
  bcast_S_S256x1x16 : S_.BroadcastsInDim S256x1x16 (![] : Fin 0 → Fin S256x1x16.rank)
  slices_S256x8192x16_S256x1x16_0_8190_0 : S256x8192x16.Slices ![0, 8190, 0] S256x1x16
  concatenates_S256x1x16_S256x8190x16_S256x1x16_S256x8192x16_d1 : Shape.Concatenates [S256x1x16, S256x8190x16, S256x1x16] S256x8192x16 1
  bcast_S_S256x8192x16 : S_.BroadcastsInDim S256x8192x16 (![] : Fin 0 → Fin S256x8192x16.rank)

variable [Facts₀]

class Facts : Prop extends Facts₀ where

variable [Facts]
-- ==== Proof.StencilSpec.lean ====
/-
  The function both programs compute, stated once over the extended reals.

  With y = x + p along the middle axis (length 8192) of an array [n, 8192, 16], the result keeps x on the two
  boundary rows 0 and 8191, and on an interior row r it is

      (y r - m · (y r - ½ (y (r-1) + y (r+1)))) - p r,   m = 1 if 2 · y r - (y (r-1) + y (r+1)) > 0, else 0,

  the second difference's sign deciding whether the entry is replaced by the mean of its two neighbours. The batch
  axis (extent n) and the channel axis (extent 16) are carried along unchanged, so the same function describes
  one block of 8 batch rows and the whole array of 256.
-/
import Idealize.ShloMosaic.PureOps.Ideal
import Idealize.ShloMosaic.PureOps.Ideal.Laws
import Idealize.ShloMosaic.Lib.ValueIdx
import Idealize.ShloMosaic.Lib.KernelVsHost

noncomputable section

namespace Cert.Stencil

open Idealize.ShloMosaic Idealize.ShloMosaic.ValueIdx

/-- The f32 word 0x40000000 denotes the real number two. -/
theorem two_eq : Ideal.ofBits .f32 0x40000000#32 = ((2 : ℝ) : EReal) := by
  simp [Ideal.ofBits, Ideal.ieee, -EReal.coe_mul]; norm_num

/-- The indicator of "the second difference is positive" as an extended real: the comparison's bit widened to a word and
    read as a signed integer, which is 0 or 1. -/
def ind (a : EReal) : EReal :=
  FloatOps.sitofp (F := Ideal) .f32 ((Ideal.cmp .ogt a (Ideal.ofBits .f32 0x00000000#32)).setWidth 32)

/-- One interior entry from the three neighbouring values u, c, d of y (rows r-1, r, r+1) and the entry pc of p at row r. -/
def interior (u c d pc : EReal) : EReal :=
  (c - ind (Ideal.ofBits .f32 0x40000000#32 * c - (u + d)) * (c - Ideal.ofBits .f32 0x3F000000#32 * (u + d))) - pc

/-- The array's entry at batch a, row r, channel k. Rows 0 and 8191 keep x; an interior row is `interior` of the
    neighbouring rows of y = x + p. (The neighbour rows are written as total functions of r: r - 1 and (r + 1) mod 8192;
    on interior rows these are the rows above and below.) -/
def specAt {n : Nat} (x p : (⟨3, ![n, 8192, 16]⟩ : Shape).Idx → EReal) (a : Fin n) (r : Fin 8192) (k : Fin 16) : EReal :=
  if r.val = 0 ∨ r.val = 8191 then x (ix3 a r k)
  else interior
    (x (ix3 a ⟨r.val - 1, by omega⟩ k) + p (ix3 a ⟨r.val - 1, by omega⟩ k))
    (x (ix3 a r k) + p (ix3 a r k))
    (x (ix3 a ⟨(r.val + 1) % 8192, Nat.mod_lt _ (by norm_num)⟩ k) + p (ix3 a ⟨(r.val + 1) % 8192, Nat.mod_lt _ (by norm_num)⟩ k))
    (p (ix3 a r k))

/-- The whole array as a function of its index. -/
def spec {n : Nat} (x p : (⟨3, ![n, 8192, 16]⟩ : Shape).Idx → EReal) : (⟨3, ![n, 8192, 16]⟩ : Shape).Idx → EReal :=
  fun i => specAt x p (i 0) (i 1) (i 2)

theorem spec_ix3 {n : Nat} (x p : (⟨3, ![n, 8192, 16]⟩ : Shape).Idx → EReal) (a : Fin n) (r : Fin 8192) (k : Fin 16) :
    spec x p (ix3 a r k) = specAt x p a r k := rfl

/-- An entry depends only on the entries of x and p in its own batch row and channel: two pairs of arrays (possibly of
    different batch extents) that agree along row a of the first and row a' of the second give the same entry. This is how a
    block of batch rows is a restriction of the whole array. -/
theorem specAt_congr {n n' : Nat} (x p : (⟨3, ![n, 8192, 16]⟩ : Shape).Idx → EReal)
    (x' p' : (⟨3, ![n', 8192, 16]⟩ : Shape).Idx → EReal) (a : Fin n) (a' : Fin n') (k : Fin 16)
    (hx : ∀ r : Fin 8192, x (ix3 a r k) = x' (ix3 a' r k)) (hp : ∀ r : Fin 8192, p (ix3 a r k) = p' (ix3 a' r k))
    (r : Fin 8192) : specAt x p a r k = specAt x' p' a' r k := by
  unfold specAt
  simp only [hx, hp]

/-! ## The two scalar identities that join the reference's spelling to this one -/

/-- Zero is not above zero: the comparison's bit is clear. -/
theorem cmp_zero_zero : Ideal.cmp .ogt 0 (Ideal.ofBits .f32 0x00000000#32) = 0#1 := by
  rw [Ideal.ofBits_zero_f32]; simp [Ideal.cmp]

/-- A boundary row as the reference computes it: the padded second difference there is 0, which is not positive, so
    the indicator is 0, the correction 0 · w vanishes whatever w is, and (x + p) - p = x because p is a real number. -/
theorem boundary_eq (xv w : EReal) (pr : ℝ) :
    ((xv + (pr : EReal)) - FloatOps.uitofp (F := Ideal) .f32 (Ideal.cmp .ogt 0 (Ideal.ofBits .f32 0x00000000#32)) * w)
      - (pr : EReal) = xv := by
  rw [cmp_zero_zero]
  show ((xv + (pr : EReal)) - (((0#1 : BitVec 1).toNat : ℝ) : EReal) * w) - (pr : EReal) = xv
  simp
  exact EReal.add_sub_cancel_right

/-- The indicator read either way: a bit widened to a word and read signed is the bit read unsigned. -/
theorem ind_eq_uitofp (a : EReal) :
    ind a = FloatOps.uitofp (F := Ideal) .f32 (Ideal.cmp .ogt a (Ideal.ofBits .f32 0x00000000#32)) := by
  show ((((Ideal.cmp .ogt a (Ideal.ofBits .f32 0x00000000#32)).setWidth 32).toInt : ℝ) : EReal)
    = (((Ideal.cmp .ogt a (Ideal.ofBits .f32 0x00000000#32)).toNat : ℝ) : EReal)
  rw [toInt_setWidth_bit]
  norm_cast

/-- The second difference in its two groupings, (-u + 2c) - d and 2c - (u + d): equal on real numbers. -/
theorem second_diff_eq (u c d : ℝ) :
    (-(u : EReal) + Ideal.ofBits .f32 0x40000000#32 * (c : EReal)) - (d : EReal)
      = Ideal.ofBits .f32 0x40000000#32 * (c : EReal) - ((u : EReal) + (d : EReal)) := by
  rw [two_eq]
  norm_cast
  ring_nf

/-- An interior row as the reference computes it is `interior`: same indicator (by the two lemmas above), same mean. -/
theorem interior_eq (u c d : ℝ) (pc : EReal) :
    ((c : EReal) - FloatOps.uitofp (F := Ideal) .f32
          (Ideal.cmp .ogt ((-(u : EReal) + Ideal.ofBits .f32 0x40000000#32 * (c : EReal)) - (d : EReal)) (Ideal.ofBits .f32 0x00000000#32))
        * ((c : EReal) - Ideal.ofBits .f32 0x3F000000#32 * ((u : EReal) + (d : EReal)))) - pc
      = interior u c d pc := by
  unfold interior
  rw [ind_eq_uitofp, second_diff_eq]

end Cert.Stencil

end
-- ==== Proof.RealInputs.lean ====
/-
  From the precondition to real numbers. The precondition says of each input array that every entry's absolute value
  is below +∞, joined over the whole array by "and". An extended real whose absolute value max x (-x) is below ⊤
  is neither ⊤ nor ⊥, so it is a real number: this is the form in which the algebra uses finiteness.
-/
import proofs.«115735_j18631568130503_1_alg».proof.Pre_finite_inputs
import Idealize.ShloMosaic.Lib.ReduceAll
import Idealize.ShloMosaic.Lib.ValueIdx
import Idealize.ShloMosaic.PureOps.Ideal.Laws

noncomputable section

namespace Cert.Stencil

open Idealize.ShloMosaic Idealize.ShloMosaic.ValueIdx

/-- The f32 word 0x7F800000 denotes +∞. -/
theorem inf_eq : Ideal.ofBits .f32 0x7F800000#32 = ⊤ := by simp [Ideal.ofBits, Ideal.ieee]

/-- If the comparison "max x (-x) < +∞" holds, x is a real number. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

/-- Under the precondition every entry of both input arrays is a real number. -/
theorem real_of_pre [Cert.Pre_finite_inputs.Facts]
    (x p : FVec Ideal Cert.Pre_finite_inputs.S256x8192x16 .f32)
    (h : Cert.Pre_finite_inputs.fn (F := Ideal) x p = fun _ => 1#1) :
    (∀ i, ∃ r : ℝ, x i = (r : EReal)) ∧ (∀ i, ∃ r : ℝ, p i = (r : EReal)) := by
  have h0 := congrFun h ix0
  dsimp only [Cert.Pre_finite_inputs.fn] at h0
  obtain ⟨h1, h2⟩ := IntOp.andi_eq_one.1 h0
  haveI : Subsingleton Cert.Pre_finite_inputs.S_.Idx := ⟨fun a b => funext fun d => d.elim0⟩
  exact ⟨fun i => real_of_abs_lt _ (Host.reduce_andi_all _ _ _ _ _ h1 i),
    fun i => real_of_abs_lt _ (Host.reduce_andi_all _ _ _ _ _ h2 i)⟩

end Cert.Stencil

end
-- ==== Proof.RefValue.lean ====
/-
  The reference's result, read one stage at a time, is the function `Cert.Stencil.spec` of the two inputs — provided
  every input entry is a real number.

  The reference forms y = x + p, the second difference (-y(r-1) + 2 y r) - y(r+1) on rows 1..8190 padded with a
  zero row at each end, the mean ½ (y(r-1) + y(r+1)) on rows 1..8190 joined between two boundary rows, and then
  (y - 1{second difference > 0} · (y - mean)) - p. On a boundary row the padded zero is not positive, the indicator
  is 0 and what is left is (x + p) - p = x; on an interior row the value is `interior` of the three neighbouring
  entries of y, after the second difference is regrouped as 2 y r - (y(r-1) + y(r+1)).
-/
import proofs.«115735_j18631568130503_1_alg».proof.Proof.Gen.ReferenceIdeal.Read
import proofs.«115735_j18631568130503_1_alg».proof.Proof.StencilSpec
import Idealize.ShloMosaic.Lib.ValueIdx
import Idealize.ShloMosaic.Lib.ValueLayout
import Idealize.ShloMosaic.Lib.KernelVsHost
import Idealize.ShloMosaic.Lib.Pipeline.Value

noncomputable section

namespace Cert.Stencil.Ref

open Idealize.ShloMosaic Idealize.ShloMosaic.ValueIdx
open Cert.ReferenceIdeal Cert.ReferenceIdeal.Gen Cert.ReferenceIdeal.Read

variable (x p : FVec Ideal S256x8192x16 .f32)

/-! ## The three shifted copies of y -/

/-- Rows 0..8189 of y: entry j is row j. -/
theorem upper_at (a : Fin 256) (j : Fin 8190) (k : Fin 16) (ru : Fin 8192) (h : ru.val = 0 + j.val) :
    val_main_v1 (F := Ideal) x p (ix3 a j k) = x (ix3 a ru k) + p (ix3 a ru k) :=
  slice3_axis1_apply 0 (val_main_v0 (F := Ideal) x p) slices_S256x8192x16_S256x8190x16_0_0_0 a j k ru h

/-- Rows 1..8190 of y: entry j is row j + 1. -/
theorem centre_at (a : Fin 256) (j : Fin 8190) (k : Fin 16) (rc : Fin 8192) (h : rc.val = 1 + j.val) :
    val_main_v2 (F := Ideal) x p (ix3 a j k) = x (ix3 a rc k) + p (ix3 a rc k) :=
  slice3_axis1_apply 1 (val_main_v0 (F := Ideal) x p) slices_S256x8192x16_S256x8190x16_0_1_0 a j k rc h

/-- Rows 2..8191 of y: entry j is row j + 2. -/
theorem lower_at (a : Fin 256) (j : Fin 8190) (k : Fin 16) (rd : Fin 8192) (h : rd.val = 2 + j.val) :
    val_main_v3 (F := Ideal) x p (ix3 a j k) = x (ix3 a rd k) + p (ix3 a rd k) :=
  slice3_axis1_apply 2 (val_main_v0 (F := Ideal) x p) slices_S256x8192x16_S256x8190x16_0_2_0 a j k rd h

/-! ## The second difference and the mean on the interior rows -/

/-- The interior second difference at entry j, over rows j, j + 1, j + 2 of y. -/
theorem diff_at (a : Fin 256) (j : Fin 8190) (k : Fin 16) (ru rc rd : Fin 8192)
    (hu : ru.val = 0 + j.val) (hc : rc.val = 1 + j.val) (hd : rd.val = 2 + j.val) :
    val_main_v8 (F := Ideal) x p (ix3 a j k)
      = (-(x (ix3 a ru k) + p (ix3 a ru k)) + Ideal.ofBits .f32 0x40000000#32 * (x (ix3 a rc k) + p (ix3 a rc k)))
          - (x (ix3 a rd k) + p (ix3 a rd k)) := by
  rw [val_main_v8_apply, val_main_v7_apply, val_main_v4_apply, val_main_v6_apply, val_main_v5_apply, val_main_cst_apply,
    upper_at x p a j k ru hu, centre_at x p a j k rc hc, lower_at x p a j k rd hd]
  rfl

/-- The interior mean at entry j, over rows j and j + 2 of y. -/
theorem mean_at (a : Fin 256) (j : Fin 8190) (k : Fin 16) (ru rd : Fin 8192)
    (hu : ru.val = 0 + j.val) (hd : rd.val = 2 + j.val) :
    val_main_v15 (F := Ideal) x p (ix3 a j k)
      = Ideal.ofBits .f32 0x3F000000#32 * ((x (ix3 a ru k) + p (ix3 a ru k)) + (x (ix3 a rd k) + p (ix3 a rd k))) := by
  rw [val_main_v15_apply, val_main_v14_apply, val_main_cst_1_apply, val_main_v13_apply,
    upper_at x p a j k ru hu, lower_at x p a j k rd hd]
  rfl

/-! ## The padded second difference and the joined mean at a row of the full array -/

/-- On an interior row r = j + 1 the padded array holds the second difference's entry j. -/
theorem padded_inside (a : Fin 256) (r : Fin 8192) (k : Fin 16) (j : Fin 8190) (hj : r.val = 1 + j.val) :
    val_main_v9 (F := Ideal) x p (ix3 a r k) = val_main_v8 (F := Ideal) x p (ix3 a j k) := by
  unfold val_main_v9
  exact pad_apply_of_inside _ _ _ _ _ _ _ (ix3 a r k) (ix3 a j k) (fun ax => match ax with
    | ⟨0, _⟩ => by show a.val = 0 + a.val * (0 + 1); omega
    | ⟨1, _⟩ => by show r.val = 1 + j.val * (0 + 1); omega
    | ⟨2, _⟩ => by show k.val = 0 + k.val * (0 + 1); omega)

/-- On the two boundary rows the padded array holds the padding value, the integer zero converted: 0. -/
theorem padded_outside (a : Fin 256) (r : Fin 8192) (k : Fin 16) (hr : r.val = 0 ∨ r.val = 8191) :
    val_main_v9 (F := Ideal) x p (ix3 a r k) = 0 := by
  unfold val_main_v9
  rw [pad_apply_of_not_inside _ _ _ _ _ _ _ (ix3 a r k) (1 : Fin 3) (by
    show ¬(1 ≤ r.val ∧ (r.val - 1) % (0 + 1) = 0 ∧ (r.val - 1) / (0 + 1) < 8190)
    omega)]
  show ((((0#32 : BitVec 32).toInt : ℤ) : ℝ) : EReal) = 0
  simp

/-- On an interior row r = j + 1 the joined array holds the mean's entry j (the middle one of the three joined pieces,
    which starts after the one boundary row before it). -/
theorem joined_inside (a : Fin 256) (r : Fin 8192) (k : Fin 16) (j : Fin 8190) (hj : r.val = 1 + j.val) :
    val_main_v19 (F := Ideal) x p (ix3 a r k) = val_main_v15 (F := Ideal) x p (ix3 a j k) := by
  unfold val_main_v19
  exact concatenate_apply_piece (1 : Fin 3) _ _ (ix3 a r k) 1 (by show 1 < 3; decide) S256x8190x16 _ rfl rfl 1 rfl (ix3 a j k)
    (fun b hb => match b, hb with
      | ⟨0, _⟩, _ => rfl
      | ⟨1, _⟩, hb => absurd (Fin.ext rfl) hb
      | ⟨2, _⟩, _ => rfl)
    (by show 1 + j.val = r.val; omega)

/-! ## The result -/

/-- The reference's last stage is `spec` of the inputs, when the inputs' entries are real numbers. -/
theorem result_eq_spec (hx : ∀ i, ∃ r : ℝ, x i = (r : EReal)) (hp : ∀ i, ∃ r : ℝ, p i = (r : EReal)) :
    val_main_v26 (F := Ideal) x p = Cert.Stencil.spec x p := by
  funext i
  obtain ⟨a, r, k, rfl⟩ : ∃ (a : Fin 256) (r : Fin 8192) (k : Fin 16), i = ix3 a r k := ⟨i 0, i 1, i 2, eq_ix3 i⟩
  rw [Cert.Stencil.spec_ix3, val_main_v26_apply, val_main_v25_apply, val_main_v24_apply, val_main_v22_apply,
    val_main_v21_apply, val_main_v23_apply, val_main_v20_apply, val_main_cst_3_apply, val_main_v0_apply]
  simp only [Ideal.addf_def, Ideal.subf_def, Ideal.mulf_def, Ideal.ofBits_def, Ideal.cmpf_def]
  unfold Cert.Stencil.specAt
  by_cases hr : r.val = 0 ∨ r.val = 8191
  · rw [if_pos hr, padded_outside x p a r k hr]
    obtain ⟨pr, hpr⟩ := hp (ix3 a r k)
    rw [hpr]
    exact Cert.Stencil.boundary_eq (x (ix3 a r k)) _ pr
  · rw [if_neg hr]
    have h1 : 1 ≤ r.val := by omega
    have h2 : r.val ≤ 8190 := by have := r.isLt; omega
    have hj : r.val - 1 < 8190 := by omega
    rw [padded_inside x p a r k ⟨r.val - 1, hj⟩ (by show r.val = 1 + (r.val - 1); omega),
      joined_inside x p a r k ⟨r.val - 1, hj⟩ (by show r.val = 1 + (r.val - 1); omega),
      diff_at x p a ⟨r.val - 1, hj⟩ k ⟨r.val - 1, by omega⟩ r ⟨(r.val + 1) % 8192, Nat.mod_lt _ (by norm_num)⟩
        (by show r.val - 1 = 0 + (r.val - 1); omega) (by show r.val = 1 + (r.val - 1); omega)
        (by show (r.val + 1) % 8192 = 2 + (r.val - 1); omega),
      mean_at x p a ⟨r.val - 1, hj⟩ k ⟨r.val - 1, by omega⟩ ⟨(r.val + 1) % 8192, Nat.mod_lt _ (by norm_num)⟩
        (by show r.val - 1 = 0 + (r.val - 1); omega) (by show (r.val + 1) % 8192 = 2 + (r.val - 1); omega)]
    obtain ⟨xu, hxu⟩ := hx (ix3 a ⟨r.val - 1, by omega⟩ k)
    obtain ⟨pu, hpu⟩ := hp (ix3 a ⟨r.val - 1, by omega⟩ k)
    obtain ⟨xc, hxc⟩ := hx (ix3 a r k)
    obtain ⟨pc, hpc⟩ := hp (ix3 a r k)
    obtain ⟨xd, hxd⟩ := hx (ix3 a ⟨(r.val + 1) % 8192, Nat.mod_lt _ (by norm_num)⟩ k)
    obtain ⟨pd, hpd⟩ := hp (ix3 a ⟨(r.val + 1) % 8192, Nat.mod_lt _ (by norm_num)⟩ k)
    rw [hxu, hpu, hxc, hpc, hxd, hpd, ← EReal.coe_add, ← EReal.coe_add, ← EReal.coe_add]
    exact Cert.Stencil.interior_eq (xu + pu) (xc + pc) (xd + pd) (pc : EReal)

end Cert.Stencil.Ref

end
-- ==== Proof.KernelBlock.lean ====
/-
  What one grid point's body leaves in the output block, as a function of the two input blocks.

  The body stores three pieces into the [8, 8192, 16] output block: row 0 and row 8191 copied from x's block, and
  rows 1..8190 computed from the three shifted copies of y = x + p. Each piece is the restriction of
  `Cert.Stencil.spec` (at batch extent 8) to its rows, so the block the stores leave is that function.
-/
import proofs.«115735_j18631568130503_1_alg».proof.Proof.Gen.KernelIdeal.Frame
import proofs.«115735_j18631568130503_1_alg».proof.Proof.StencilSpec
import Idealize.ShloMosaic.Lib.Pipeline.Value
import Idealize.ShloMosaic.Lib.ValueIdx
import Idealize.ShloMosaic.Lib.ValueLayout

set_option maxRecDepth 16384

noncomputable section

namespace Cert.Stencil.Block

open Cert.KernelIdeal Cert.KernelIdeal.Gen Idealize.ShloMosaic Idealize.ShloMosaic.ValueIdx Idealize.ShloMosaic.Tactic

/-- The zero offsets, however they are spelt. -/
theorem zero_off : (![0, 0, 0] : Fin 3 → Nat) = fun _ => 0 := by
  funext a; match a with | ⟨0, _⟩ => rfl | ⟨1, _⟩ => rfl | ⟨2, _⟩ => rfl

/-- A band of m rows starting at row o, all batch rows and channels: local entry (b, j, k) is the block's entry
    (b, o + j, k). -/
theorem band_emb {m : Nat} (o : Nat) (inb : ∀ a, (![0, o, 0] : Fin 3 → Nat) a + (![8, m, 16] : Fin 3 → Nat) a ≤ S8x8192x16.size a)
    (b : Fin 8) (j : Fin m) (k : Fin 16) (r : Fin 8192) (hr : r.val = o + j.val) :
    (Rect.unit (s := S8x8192x16) ![0, o, 0] ![8, m, 16] inb).emb (ix3 b j k) = ix3 b r k := by
  funext d
  match d with
  | ⟨0, _⟩ => exact Fin.ext (by show 0 + 1 * b.val = b.val; omega)
  | ⟨1, _⟩ => exact Fin.ext (by show o + 1 * j.val = r.val; omega)
  | ⟨2, _⟩ => exact Fin.ext (by show 0 + 1 * k.val = k.val; omega)

variable (x0 x1 : Vec Ideal S8x8192x16 .f32)

/-! ## The three stored pieces -/

/-- Row 0 is x's row 0. -/
theorem first_piece (xl : (⟨3, ![8, 1, 16]⟩ : Shape).Idx) :
    k0_pay2 (F := Ideal) x0 xl
      = Cert.Stencil.spec x0 x1 ((Rect.unit (s := S8x8192x16) ![0, 0, 0] ![8, 1, 16] inb_S8x8192x16_S8x1x16_0_0_0).emb xl) := by
  obtain ⟨b, j, k, rfl⟩ : ∃ (b : Fin 8) (j : Fin 1) (k : Fin 16), xl = ix3 b j k := ⟨xl 0, xl 1, xl 2, eq_ix3 xl⟩
  have hj : j.val = 0 := by have := j.isLt; omega
  rw [band_emb 0 _ b j k ⟨0, by norm_num⟩ (by show 0 = 0 + j.val; omega), Cert.Stencil.spec_ix3]
  unfold Cert.Stencil.specAt
  rw [if_pos (Or.inl rfl)]
  exact slice3_axis1_apply 0 x0 slices_S8x8192x16_o0_0_0_S8x1x16 b j k ⟨0, by norm_num⟩ (by show 0 = 0 + j.val; omega)

/-- Row 8191 is x's row 8191. -/
theorem last_piece (xl : (⟨3, ![8, 1, 16]⟩ : Shape).Idx) :
    k0_pay3 (F := Ideal) x0 xl
      = Cert.Stencil.spec x0 x1 ((Rect.unit (s := S8x8192x16) ![0, 8191, 0] ![8, 1, 16] inb_S8x8192x16_S8x1x16_0_8191_0).emb xl) := by
  obtain ⟨b, j, k, rfl⟩ : ∃ (b : Fin 8) (j : Fin 1) (k : Fin 16), xl = ix3 b j k := ⟨xl 0, xl 1, xl 2, eq_ix3 xl⟩
  have hj : j.val = 0 := by have := j.isLt; omega
  rw [band_emb 8191 _ b j k ⟨8191, by norm_num⟩ (by show 8191 = 8191 + j.val; omega), Cert.Stencil.spec_ix3]
  unfold Cert.Stencil.specAt
  rw [if_pos (Or.inr rfl)]
  exact slice3_axis1_apply 8191 x0 slices_S8x8192x16_o0_8191_0_S8x1x16 b j k ⟨8191, by norm_num⟩ (by show 8191 = 8191 + j.val; omega)

/-- Entry j of the interior piece, over rows j, j + 1, j + 2 of y = x + p and row j + 1 of p. -/
theorem interior_at (b : Fin 8) (j : Fin 8190) (k : Fin 16) (ru rc rd : Fin 8192)
    (hu : ru.val = 0 + j.val) (hc : rc.val = 1 + j.val) (hd : rd.val = 2 + j.val) :
    k0_pay1 (F := Ideal) x0 x1 (ix3 b j k)
      = Cert.Stencil.interior (x0 (ix3 b ru k) + x1 (ix3 b ru k)) (x0 (ix3 b rc k) + x1 (ix3 b rc k))
          (x0 (ix3 b rd k) + x1 (ix3 b rd k)) (x1 (ix3 b rc k)) := by
  have eu := slice3_axis1_apply 0 (addf (F := Ideal) (φ := .f32) x0 x1) slices_S8x8192x16_o0_0_0_S8x8190x16 b j k ru hu
  have ec := slice3_axis1_apply 1 (addf (F := Ideal) (φ := .f32) x0 x1) slices_S8x8192x16_o0_1_0_S8x8190x16 b j k rc hc
  have ed := slice3_axis1_apply 2 (addf (F := Ideal) (φ := .f32) x0 x1) slices_S8x8192x16_o0_2_0_S8x8190x16 b j k rd hd
  have ep := slice3_axis1_apply 1 x1 slices_S8x8192x16_o0_1_0_S8x8190x16 b j k rc hc
  show Cert.Stencil.interior
      (extractStridedSlice S8x8190x16 ![0, 0, 0] (addf (F := Ideal) (φ := .f32) x0 x1) slices_S8x8192x16_o0_0_0_S8x8190x16 (ix3 b j k))
      (extractStridedSlice S8x8190x16 ![0, 1, 0] (addf (F := Ideal) (φ := .f32) x0 x1) slices_S8x8192x16_o0_1_0_S8x8190x16 (ix3 b j k))
      (extractStridedSlice S8x8190x16 ![0, 2, 0] (addf (F := Ideal) (φ := .f32) x0 x1) slices_S8x8192x16_o0_2_0_S8x8190x16 (ix3 b j k))
      (extractStridedSlice S8x8190x16 ![0, 1, 0] x1 slices_S8x8192x16_o0_1_0_S8x8190x16 (ix3 b j k)) = _
  rw [eu, ec, ed, ep]
  rfl

/-- Rows 1..8190 are the interior rows of `spec`. -/
theorem interior_piece (xl : (⟨3, ![8, 8190, 16]⟩ : Shape).Idx) :
    k0_pay1 (F := Ideal) x0 x1 xl
      = Cert.Stencil.spec x0 x1 ((Rect.unit (s := S8x8192x16) ![0, 1, 0] ![8, 8190, 16] inb_S8x8192x16_S8x8190x16_0_1_0).emb xl) := by
  obtain ⟨b, j, k, rfl⟩ : ∃ (b : Fin 8) (j : Fin 8190) (k : Fin 16), xl = ix3 b j k := ⟨xl 0, xl 1, xl 2, eq_ix3 xl⟩
  have hj := j.isLt
  rw [band_emb 1 _ b j k ⟨1 + j.val, by omega⟩ rfl, Cert.Stencil.spec_ix3]
  unfold Cert.Stencil.specAt
  rw [if_neg (by show ¬(1 + j.val = 0 ∨ 1 + j.val = 8191); omega)]
  exact interior_at x0 x1 b j k ⟨1 + j.val - 1, by omega⟩ ⟨1 + j.val, by omega⟩ ⟨(1 + j.val + 1) % 8192, Nat.mod_lt _ (by norm_num)⟩
    (by show 1 + j.val - 1 = 0 + j.val; omega) rfl (by show (1 + j.val + 1) % 8192 = 2 + j.val; omega)

/-! ## The block -/

/-- The pieces the body's run ends with, newest first, over the input blocks themselves. -/
theorem pieces_eq (c : Dev nD) (i : grid0.Coords) (arg1 : Memref sig .tc .vmem S8x8192x16 .f32) (harg1 : arg1.IsWhole)
    (arg2 : Memref sig .tc .vmem S8x8192x16 .f32) (harg2 : arg2.IsWhole) (arg3 : Memref sig .tc .vmem S8x8192x16 .f32) (harg3 : arg3.IsWhole) :
    (kernelRun0_A (F := Ideal) c i arg1 harg1 arg2 harg2 arg3 harg3 x0 x1).1
      = [⟨Rect.unit (s := S8x8192x16) ![0, 8191, 0] ![8, 1, 16] inb_S8x8192x16_S8x1x16_0_8191_0, k0_pay3 (F := Ideal) x0⟩,
         ⟨Rect.unit (s := S8x8192x16) ![0, 1, 0] ![8, 8190, 16] inb_S8x8192x16_S8x8190x16_0_1_0, k0_pay1 (F := Ideal) x0 x1⟩,
         ⟨Rect.unit (s := S8x8192x16) ![0, 0, 0] ![8, 1, 16] inb_S8x8192x16_S8x1x16_0_0_0, k0_pay2 (F := Ideal) x0⟩] := by
  unfold kernelRun0_A
  dsimp only
  sl_unfold_words
  simp only [View.readAt_eq_ld, harg1.read_unread, harg2.read_unread, View.ld_unit_zero (S := S8x8192x16) zero_off]

/-- The output block after the body is `spec` of the two input blocks. -/
theorem block_eq (c : Dev nD) (i : grid0.Coords) (arg1 : Memref sig .tc .vmem S8x8192x16 .f32) (harg1 : arg1.IsWhole)
    (arg2 : Memref sig .tc .vmem S8x8192x16 .f32) (harg2 : arg2.IsWhole) (arg3 : Memref sig .tc .vmem S8x8192x16 .f32) (harg3 : arg3.IsWhole) :
    out0_A_2 (F := Ideal) c i arg1 harg1 arg2 harg2 arg3 harg3 x0 x1 = Cert.Stencil.spec x0 x1 := by
  unfold out0_A_2
  rw [View.read_writes_eq_canon _ _ _ (cover0_A_2 c i arg1 harg1 arg2 harg2 arg3 harg3 x0 x1)]
  funext y
  refine View.canon_apply_of_pieces (Cert.Stencil.spec x0 x1) _ ?_ y (cover0_A_2 c i arg1 harg1 arg2 harg2 arg3 harg3 x0 x1 y)
  rw [pieces_eq x0 x1 c i arg1 harg1 arg2 harg2 arg3 harg3]
  intro pc hpc xl
  simp only [List.mem_cons, List.not_mem_nil, or_false] at hpc
  rcases hpc with rfl | rfl | rfl
  · exact last_piece x0 x1 xl
  · exact interior_piece x0 x1 xl
  · exact first_piece x0 x1 xl

end Cert.Stencil.Block

end
-- ==== Proof.KernelArray.lean ====
/-
  From blocks to the whole array. The grid has 32 points; point t stages batch rows 8t .. 8t + 7 of both inputs (all
  8192 rows and 16 channels of each) and writes back the same batch rows of the output. The three-point stencil
  runs along the row axis, which lies wholly inside a block, so what point t writes back is block t of
  `Cert.Stencil.spec` of the whole argument arrays; the 32 blocks tile the output, so after the run the output
  array is that function.
-/
import proofs.«115735_j18631568130503_1_alg».proof.Proof.Gen.KernelIdeal.Value
import proofs.«115735_j18631568130503_1_alg».proof.Proof.KernelBlock
import Idealize.ShloMosaic.Lib.Pipeline.Value
import Idealize.ShloMosaic.Lib.ValueIdx

set_option maxRecDepth 16384

noncomputable section

namespace Cert.Stencil.Whole

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three index maps, decided over the grid: at point t every window's block index is (t, 0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The two argument arrays and, at a grid point, their staged blocks, at their literal types. -/
abbrev xarr (c : Dev nD) : Vec Ideal S256x8192x16 .f32 := m ((c : Thread nD τ).loc main_arg0)
abbrev parr (c : Dev nD) : Vec Ideal S256x8192x16 .f32 := m ((c : Thread nD τ).loc main_arg1)
abbrev xblk (c : Dev nD) (t : Fin cfg0.N) : Vec Ideal S8x8192x16 .f32 := iblk m c 0 t
abbrev pblk (c : Dev nD) (t : Fin cfg0.N) : Vec Ideal S8x8192x16 .f32 := iblk m c 1 t

/-- Block t of x: its entry (b, r, k) is the array's entry (8t + b, r, k). -/
theorem xblk_at (c : Dev nD) (t : Fin cfg0.N) (b : Fin 8) (r : Fin 8192) (k : Fin 16) (a : Fin 256)
    (ha : a.val = 8 * t.val + b.val) : xblk m c t (ix3 b r k) = xarr m c (ix3 a r k) := by
  obtain ⟨e0, e1, e2, -⟩ := index_facts t
  show V m c main_arg0 (((cfg0.win 0).blk t).view.emb (ix3 b r k)) = m ((c : Thread nD τ).loc main_arg0) (ix3 a r k)
  unfold V
  congr 1
  funext d
  apply Fin.ext
  match d with
  | ⟨0, _⟩ => show win0_0.index t (0 : Fin 3) * 8 + 1 * b.val = a.val; rw [e0]; omega
  | ⟨1, _⟩ => show win0_0.index t (1 : Fin 3) * 8192 + 1 * r.val = r.val; rw [e1]; omega
  | ⟨2, _⟩ => show win0_0.index t (2 : Fin 3) * 16 + 1 * k.val = k.val; rw [e2]; omega

/-- Block t of p: its entry (b, r, k) is the array's entry (8t + b, r, k). -/
theorem pblk_at (c : Dev nD) (t : Fin cfg0.N) (b : Fin 8) (r : Fin 8192) (k : Fin 16) (a : Fin 256)
    (ha : a.val = 8 * t.val + b.val) : pblk m c t (ix3 b r k) = parr m c (ix3 a r k) := by
  obtain ⟨-, -, -, e0, e1, e2, -⟩ := index_facts t
  show V m c main_arg1 (((cfg0.win 1).blk t).view.emb (ix3 b r k)) = m ((c : Thread nD τ).loc main_arg1) (ix3 a r k)
  unfold V
  congr 1
  funext d
  apply Fin.ext
  match d with
  | ⟨0, _⟩ => show win0_1.index t (0 : Fin 3) * 8 + 1 * b.val = a.val; rw [e0]; omega
  | ⟨1, _⟩ => show win0_1.index t (1 : Fin 3) * 8192 + 1 * r.val = r.val; rw [e1]; omega
  | ⟨2, _⟩ => show win0_1.index t (2 : Fin 3) * 16 + 1 * k.val = k.val; rw [e2]; omega

/-- The function on block t's inputs at batch row b is the function on the whole arrays at batch row 8t + b. -/
theorem blk_spec (c : Dev nD) (t : Fin cfg0.N) (b : Fin 8) (r : Fin 8192) (k : Fin 16) (a : Fin 256)
    (ha : a.val = 8 * t.val + b.val) :
    Cert.Stencil.specAt (xblk m c t) (pblk m c t) b r k = Cert.Stencil.specAt (xarr m c) (parr m c) a r k :=
  Cert.Stencil.specAt_congr _ _ _ _ b a k (fun r' => xblk_at m c t b r' k a ha) (fun r' => pblk_at m c t b r' k a ha) r

/-- What point t writes back is block t of `spec` of the argument arrays. -/
theorem flushed_eq (c : Dev nD) (t : Fin cfg0.N) :
    (dats m 0 c).flushed 2 t
      = ((cfg0.win 2).blk t).view.read (Elt Ideal) (Cert.Stencil.spec (xarr m c) (parr m c)) := by
  rw [flushed2_A m c t, Cert.Stencil.Block.block_eq (xblk m c t) (pblk m c t)]
  obtain ⟨-, -, -, -, -, -, e0, e1, e2⟩ := index_facts t
  have hN : cfg0.N = 32 := N_0
  have ht := t.isLt
  funext j
  have hj0 : (j 0).val < 8 := (j 0).isLt
  have hj1 : (j 1).val < 8192 := (j 1).isLt
  have hj2 : (j 2).val < 16 := (j 2).isLt
  rw [View.read_apply]
  have he : ((cfg0.win 2).blk t).view.emb j
      = ix3 (⟨8 * t.val + (j 0).val, by omega⟩ : Fin 256) (⟨(j 1).val, hj1⟩ : Fin 8192) (⟨(j 2).val, hj2⟩ : Fin 16) := by
    funext d
    apply Fin.ext
    match d with
    | ⟨0, _⟩ => show win0_2.index t (0 : Fin 3) * 8 + 1 * (j 0).val = 8 * t.val + (j 0).val; rw [e0]; omega
    | ⟨1, _⟩ => show win0_2.index t (1 : Fin 3) * 8192 + 1 * (j 1).val = (j 1).val; rw [e1]; omega
    | ⟨2, _⟩ => show win0_2.index t (2 : Fin 3) * 16 + 1 * (j 2).val = (j 2).val; rw [e2]; omega
  rw [he, Cert.Stencil.spec_ix3]
  exact blk_spec m c t ⟨(j 0).val, hj0⟩ ⟨(j 1).val, hj1⟩ ⟨(j 2).val, hj2⟩ _ rfl

/-- An index of the output array is in point t's block iff each coordinate is in the block's range on its axis. -/
theorem mem_blk (t : Fin cfg0.N) (i : S256x8192x16.Idx) :
    i ∈ ((cfg0.win 2).blk t).view.set ↔ ∀ a : Fin 3, win0_2.index t a * S8x8192x16.size a ≤ (i a).val
      ∧ (i a).val < win0_2.index t a * S8x8192x16.size a + S8x8192x16.size a := by
  show i ∈ ((View.whole main_v0).slice (win0_2.rect t)).set ↔ _
  rw [View.set_slice_whole, Rect.mem_set_unit]
  exact Iff.rfl

/-- Every index of the output array lies in the block of the point that holds its batch row: point (batch row) / 8. -/
theorem covered (i : S256x8192x16.Idx) :
    ∃ t : Fin cfg0.N, (cfg0.win 2).flush t = true ∧ i ∈ ((cfg0.win 2).blk t).view.set := by
  have hN : cfg0.N = 32 := N_0
  have hi0 : (i 0).val < 256 := (i 0).isLt
  have hi1 : (i 1).val < 8192 := (i 1).isLt
  have hi2 : (i 2).val < 16 := (i 2).isLt
  refine ⟨⟨(i 0).val / 8, by omega⟩, flush0_2 _, ?_⟩
  obtain ⟨-, -, -, -, -, -, e0, e1, e2⟩ := index_facts ⟨(i 0).val / 8, by omega⟩
  rw [mem_blk]
  intro a
  match a with
  | ⟨0, _⟩ =>
    show win0_2.index ⟨(i 0).val / 8, _⟩ (0 : Fin 3) * 8 ≤ (i 0).val ∧ (i 0).val < win0_2.index ⟨(i 0).val / 8, _⟩ (0 : Fin 3) * 8 + 8
    rw [e0]; show (i 0).val / 8 * 8 ≤ (i 0).val ∧ (i 0).val < (i 0).val / 8 * 8 + 8; omega
  | ⟨1, _⟩ =>
    show win0_2.index ⟨(i 0).val / 8, _⟩ (1 : Fin 3) * 8192 ≤ (i 1).val ∧ (i 1).val < win0_2.index ⟨(i 0).val / 8, _⟩ (1 : Fin 3) * 8192 + 8192
    rw [e1]; omega
  | ⟨2, _⟩ =>
    show win0_2.index ⟨(i 0).val / 8, _⟩ (2 : Fin 3) * 16 ≤ (i 2).val ∧ (i 2).val < win0_2.index ⟨(i 0).val / 8, _⟩ (2 : Fin 3) * 16 + 16
    rw [e2]; omega

/-- The output array after the run is `spec` of the argument arrays. -/
theorem final (c : Dev nD) : (dats m 0 c).arrAt 2 cfg0.N = Cert.Stencil.spec (xarr m c) (parr m c) :=
  (dats m 0 c).arrAt_eq_of_cover 2 (Cert.Stencil.spec (xarr m c) (parr m c)) (fun t _ => flushed_eq m c t) covered

/-- The idealized kernel's run, read: the result array at `spec` of the arguments, the arguments unchanged. -/
theorem run : θ_run defs (onTc (τ := τ) (main (F := Ideal))) ⟨m, fun _ => 0, ρ⟩ fun r => ∀ c : Dev nD,
      r.2.mem ((c : Thread nD τ).loc main_v0) = Cert.Stencil.spec (xarr m c) (parr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Stencil.Whole

end
-- ==== Proof.lean ====
/-
  The kernel and its reference compute one function of the inputs x and p (both [256, 8192, 16], every entry finite).

  With y = x + p along the row axis of length 8192, the result keeps x on the boundary rows 0 and 8191, and on an
  interior row r it is (y r - m · (y r - ½ (y (r-1) + y (r+1)))) - p r, where m is 1 when the second difference
  2 · y r - (y (r-1) + y (r+1)) is positive and 0 otherwise (`Cert.Stencil.spec`, Proof/StencilSpec.lean).

  The kernel computes exactly this, 8 batch rows at a time: each grid point stores row 0, rows 1..8190 and row 8191 of
  its block (Proof/KernelBlock.lean), and the 32 blocks tile the array (Proof/KernelArray.lean). The reference pads the
  interior second difference with a zero row at each end and compares everywhere; on a boundary row the padded zero is
  not positive, so the correction is 0 times something and vanishes, and (x + p) - p = x because p is finite; on an
  interior row its second difference is grouped (-y (r-1) + 2 y r) - y (r+1), equal to the kernel's on real numbers, and
  its indicator (a bit read unsigned) is the kernel's (the bit widened and read signed) (Proof/RefValue.lean). Finiteness of
  the entries is what the precondition gives (Proof/RealInputs.lean). The idealization rewrote nothing, so the kernel's
  idealized text is its own text read over the extended reals.
-/
import proofs.«115735_j18631568130503_1_alg».proof.Defs
import proofs.«115735_j18631568130503_1_alg».proof.Proof.Gen.Kernel
import proofs.«115735_j18631568130503_1_alg».proof.Proof.Gen.Kernel.Skeleton
import proofs.«115735_j18631568130503_1_alg».proof.Proof.Gen.Kernel.Launch
import proofs.«115735_j18631568130503_1_alg».proof.Proof.Gen.Kernel.Points
import proofs.«115735_j18631568130503_1_alg».proof.Proof.Gen.Kernel.Frame
import proofs.«115735_j18631568130503_1_alg».proof.Proof.Gen.KernelIdeal
import proofs.«115735_j18631568130503_1_alg».proof.Proof.Gen.KernelIdeal.Skeleton
import proofs.«115735_j18631568130503_1_alg».proof.Proof.Gen.KernelIdeal.Launch
import proofs.«115735_j18631568130503_1_alg».proof.Proof.Gen.KernelIdeal.Points
import proofs.«115735_j18631568130503_1_alg».proof.Proof.Gen.KernelIdeal.Frame
import proofs.«115735_j18631568130503_1_alg».proof.Proof.Gen.ReferenceIdeal
import proofs.«115735_j18631568130503_1_alg».proof.Proof.Gen.Pre_finite_inputs
import proofs.«115735_j18631568130503_1_alg».proof.Proof.Gen.KernelIdeal.Value
import proofs.«115735_j18631568130503_1_alg».proof.Proof.Gen.ReferenceIdeal.Run
import proofs.«115735_j18631568130503_1_alg».proof.Proof.Gen.ReferenceIdeal.Read
import proofs.«115735_j18631568130503_1_alg».proof.Proof.StencilSpec
import proofs.«115735_j18631568130503_1_alg».proof.Proof.RealInputs
import proofs.«115735_j18631568130503_1_alg».proof.Proof.RefValue
import proofs.«115735_j18631568130503_1_alg».proof.Proof.KernelBlock
import proofs.«115735_j18631568130503_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From inputs that agree and are finite, both programs end with the result array at `Cert.Stencil.spec` of the inputs:
    the kernel block by block, the reference stage by stage. -/
theorem algebraic : Cert.algebraic_KernelIdeal_ReferenceIdeal := by
  intro m ρ m' ρ' hpre hagree
  refine ⟨_, Cert.Stencil.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  obtain ⟨hx, hp⟩ := Cert.Stencil.real_of_pre _ _ (hpre c)
  exact Cert.Stencil.Ref.result_eq_spec _ _ hx hp

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
